-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S_ : Shape := ⟨0, ![]⟩

class Facts : Prop where
  bcast_S_S5x16x11x128x128 : S_.BroadcastsInDim S5x16x11x128x128 (![] : Fin 0 → Fin S5x16x11x128x128.rank)
  reducesTo_S5x16x11x128x128_S_d0_1_2_3_4 : S5x16x11x128x128.ReducesTo [0, 1, 2, 3, 4] S_
  h_S_ : 0 < S_.numel
  bcast_S_S5x16x11x7 : S_.BroadcastsInDim S5x16x11x7 (![] : Fin 0 → Fin S5x16x11x7.rank)
  reducesTo_S5x16x11x7_S_d0_1_2_3 : S5x16x11x7.ReducesTo [0, 1, 2, 3] S_
  bcast_S_S16x11x7 : S_.BroadcastsInDim S16x11x7 (![] : Fin 0 → Fin S16x11x7.rank)
  reducesTo_S16x11x7_S_d0_1_2 : S16x11x7.ReducesTo [0, 1, 2] S_

variable [Facts]

def fn_part1 {F : FTy → Type} [FloatOps F] (main_v13 : IVec S_ 1) (main_v16 : IVec S16x11x7 1) : IVec S_ 1 :=
  let main_c_5 : IVec S_ 1 := constantI S_ 1 1#1
  let main_v17 : IVec S_ 1 := (fun x v => Host.reduce IntOp.andi x v reducesTo_S16x11x7_S_d0_1_2 h_S_) main_v16 main_c_5
  let main_v18 : IVec S_ 1 := andi main_v13 main_v17
  main_v18

def fn {F : FTy → Type} [FloatOps F] (main_arg0 : FVec F S5x16x11x128x128 .f32) (main_arg1 : FVec F S5x16x11x128x128 .f32) (main_arg2 : FVec F S5x16x11x7 .f32) (main_arg3 : FVec F S16x11x7 .f32) : IVec S_ 1 :=
  let main_v0 : FVec F S5x16x11x128x128 .f32 := Host.absf main_arg0
  let main_cst : FVec F S_ .f32 := constant S_ .f32 0x7F800000#32
  let main_v1 : FVec F S5x16x11x128x128 .f32 := broadcastInDim S5x16x11x128x128 ![] bcast_S_S5x16x11x128x128 main_cst
  let main_v2 : IVec S5x16x11x128x128 1 := cmpf .olt main_v0 main_v1
  let main_c : IVec S_ 1 := constantI S_ 1 1#1
  let main_v3 : IVec S_ 1 := (fun x v => Host.reduce IntOp.andi x v reducesTo_S5x16x11x128x128_S_d0_1_2_3_4 h_S_) main_v2 main_c
  let main_v4 : FVec F S5x16x11x128x128 .f32 := Host.absf main_arg1
  let main_cst_0 : FVec F S_ .f32 := constant S_ .f32 0x7F800000#32
  let main_v5 : FVec F S5x16x11x128x128 .f32 := broadcastInDim S5x16x11x128x128 ![] bcast_S_S5x16x11x128x128 main_cst_0
  let main_v6 : IVec S5x16x11x128x128 1 := cmpf .olt main_v4 main_v5
  let main_c_1 : IVec S_ 1 := constantI S_ 1 1#1
  let main_v7 : IVec S_ 1 := (fun x v => Host.reduce IntOp.andi x v reducesTo_S5x16x11x128x128_S_d0_1_2_3_4 h_S_) main_v6 main_c_1
  let main_v8 : IVec S_ 1 := andi main_v3 main_v7
  let main_v9 : FVec F S5x16x11x7 .f32 := Host.absf main_arg2
  let main_cst_2 : FVec F S_ .f32 := constant S_ .f32 0x7F800000#32
  let main_v10 : FVec F S5x16x11x7 .f32 := broadcastInDim S5x16x11x7 ![] bcast_S_S5x16x11x7 main_cst_2
  let main_v11 : IVec S5x16x11x7 1 := cmpf .olt main_v9 main_v10
  let main_c_3 : IVec S_ 1 := constantI S_ 1 1#1
  let main_v12 : IVec S_ 1 := (fun x v => Host.reduce IntOp.andi x v reducesTo_S5x16x11x7_S_d0_1_2_3 h_S_) main_v11 main_c_3
  let main_v13 : IVec S_ 1 := andi main_v8 main_v12
  let main_v14 : FVec F S16x11x7 .f32 := Host.absf main_arg3
  let main_cst_4 : FVec F S_ .f32 := constant S_ .f32 0x7F800000#32
  let main_v15 : FVec F S16x11x7 .f32 := broadcastInDim S16x11x7 ![] bcast_S_S16x11x7 main_cst_4
  let main_v16 : IVec S16x11x7 1 := cmpf .olt main_v14 main_v15
  fn_part1 (F := F) main_v13 main_v16
-- ==== Kernel.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S5x16x11 : Shape := ⟨3, ![5, 16, 11]⟩
abbrev S1x8x11x128x128 : Shape := ⟨5, ![1, 8, 11, 128, 128]⟩
abbrev S1x8x11 : Shape := ⟨3, ![1, 8, 11]⟩
abbrev S8x11x128x128 : Shape := ⟨4, ![8, 11, 128, 128]⟩
abbrev S8x11x128 : Shape := ⟨3, ![8, 11, 128]⟩
abbrev S8x11 : Shape := ⟨2, ![8, 11]⟩
abbrev S_ : Shape := ⟨0, ![]⟩
abbrev S5x16 : Shape := ⟨2, ![5, 16]⟩
abbrev S16x5 : Shape := ⟨2, ![16, 5]⟩
abbrev S1x16x11x7 : Shape := ⟨4, ![1, 16, 11, 7]⟩

abbrev nBuf : Space → Nat
  | .hbm => 15
  | .vmem => 6
  | .smem => 0
  | _ => 0

abbrev bufTy : (tb : Table) → Fin (tcTables nBuf tb) → BufTy
  | .hbm, ⟨0, _⟩ => ⟨S5x16x11x128x128, .f32⟩
  | .hbm, ⟨1, _⟩ => ⟨S5x16x11x128x128, .f32⟩
  | .hbm, ⟨2, _⟩ => ⟨S5x16x11x7, .f32⟩
  | .hbm, ⟨3, _⟩ => ⟨S16x11x7, .f32⟩
  | .hbm, ⟨4, _⟩ => ⟨S5x16x11, .f32⟩
  | .hbm, ⟨5, _⟩ => ⟨S_, .f32⟩
  | .hbm, ⟨6, _⟩ => ⟨S5x16, .f32⟩
  | .hbm, ⟨7, _⟩ => ⟨S16x5, .f32⟩
  | .hbm, ⟨8, _⟩ => ⟨S1x16x11x7, .f32⟩
  | .hbm, ⟨9, _⟩ => ⟨S5x16x11x7, .f32⟩
  | .hbm, ⟨10, _⟩ => ⟨S5x16x11x7, .f32⟩
  | .hbm, ⟨11, _⟩ => ⟨S5x16x11x7, .f32⟩
  | .hbm, ⟨12, _⟩ => ⟨S_, .f32⟩
  | .hbm, ⟨13, _⟩ => ⟨S5x16, .f32⟩
  | .hbm, ⟨14, _⟩ => ⟨S16x5, .f32⟩
  | .local _ .vmem, ⟨0, _⟩ => ⟨S1x8x11x128x128, .f32⟩
  | .local _ .vmem, ⟨1, _⟩ => ⟨S1x8x11x128x128, .f32⟩
  | .local _ .vmem, ⟨2, _⟩ => ⟨S1x8x11x128x128, .f32⟩
  | .local _ .vmem, ⟨3, _⟩ => ⟨S1x8x11x128x128, .f32⟩
  | .local _ .vmem, ⟨4, _⟩ => ⟨S1x8x11, .f32⟩
  | .local _ .vmem, ⟨5, _⟩ => ⟨S1x8x11, .f32⟩
  | _, _ => ⟨S5x16x11x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x11x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x11x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x11x128x128_S1x8x11x128x128_0_0_0_0_0 : ∀ a, (![0, 0, 0, 0, 0] : Fin 5 → Nat) a + S1x8x11x128x128.size a ≤ S1x8x11x128x128.size a
  h_S1x8x11x128x128 : 0 < S1x8x11x128x128.numel
  shapeCasts_S1x8x11x128x128_S8x11x128x128 : S1x8x11x128x128.ShapeCasts S8x11x128x128
  reduces_S8x11x128x128_S8x11x128 : S8x11x128x128.Reduces [3] S8x11x128
  reduces_S8x11x128_S8x11 : S8x11x128.Reduces [2] S8x11
  inb_S1x8x11_S1x8x11_0_0_0 : ∀ a, (![0, 0, 0] : Fin 3 → Nat) a + S1x8x11.size a ≤ S1x8x11.size a
  h_S1x8x11 : 0 < S1x8x11.numel
  shapeCasts_S1x8x11_S8x11 : S1x8x11.ShapeCasts S8x11
  shapeCasts_S8x11_S1x8x11 : S8x11.ShapeCasts S1x8x11
  reducesTo_S5x16x11_S5x16_d2 : S5x16x11.ReducesTo [2] S5x16
  h_S_ : 0 < S_.numel
  transposes_S5x16_S16x5_1_0 : S5x16.Transposes [1, 0] S16x5
  bcast_S16x11x7_S1x16x11x7_1_2_3 : S16x11x7.BroadcastsInDim S1x16x11x7 (![1, 2, 3] : Fin 3 → Fin S1x16x11x7.rank)
  bcast_S1x16x11x7_S5x16x11x7_0_1_2_3 : S1x16x11x7.BroadcastsInDim S5x16x11x7 (![0, 1, 2, 3] : Fin 4 → Fin S5x16x11x7.rank)
  reducesTo_S5x16x11x7_S5x16_d2_3 : S5x16x11x7.ReducesTo [2, 3] S5x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x11x128x128.size a ≤ S5x16x11x128x128.size a
  hwx0_0 : ∀ i : grid0.Coords, EltTy.bits .f32 = 32 ∨ (Rect.block (s := S5x16x11x128x128) S1x8x11x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x11x128x128.size a ≤ S5x16x11x128x128.size a
  hwx0_1 : ∀ i : grid0.Coords, EltTy.bits .f32 = 32 ∨ (Rect.block (s := S5x16x11x128x128) S1x8x11x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x11.size a ≤ S5x16x11.size a
  hwx0_2 : ∀ i : grid0.Coords, EltTy.bits .f32 = 32 ∨ (Rect.block (s := S5x16x11) S1x8x11.size (cc0_transform_2 i) (hinb0_2 i)).WholeWords (EltTy.packing .f32)

variable [Facts₀]

abbrev win0_0 : Pipeline.Window sig grid0 :=
  Pipeline.Window.ofSpec (Memref.whole main_arg0) S1x8x11x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x11x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x11.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S_ : Shape := ⟨0, ![]⟩
abbrev S5x16x11 : Shape := ⟨3, ![5, 16, 11]⟩
abbrev S5x16 : Shape := ⟨2, ![5, 16]⟩
abbrev S16x5 : Shape := ⟨2, ![16, 5]⟩
abbrev S1x16x11x7 : Shape := ⟨4, ![1, 16, 11, 7]⟩

abbrev nBuf : Space → Nat
  | .hbm => 21
  | .vmem => 0
  | .smem => 0
  | _ => 0

abbrev bufTy : (tb : Table) → Fin (tcTables nBuf tb) → BufTy
  | .hbm, ⟨0, _⟩ => ⟨S5x16x11x128x128, .f32⟩
  | .hbm, ⟨1, _⟩ => ⟨S5x16x11x128x128, .f32⟩
  | .hbm, ⟨2, _⟩ => ⟨S5x16x11x7, .f32⟩
  | .hbm, ⟨3, _⟩ => ⟨S16x11x7, .f32⟩
  | .hbm, ⟨4, _⟩ => ⟨S5x16x11x128x128, .f32⟩
  | .hbm, ⟨5, _⟩ => ⟨S5x16x11x128x128, .f32⟩
  | .hbm, ⟨6, _⟩ => ⟨S_, .f32⟩
  | .hbm, ⟨7, _⟩ => ⟨S5x16x11, .f32⟩
  | .hbm, ⟨8, _⟩ => ⟨S_, .f32⟩
  | .hbm, ⟨9, _⟩ => ⟨S5x16x11, .f32⟩
  | .hbm, ⟨10, _⟩ => ⟨S5x16x11, .f32⟩
  | .hbm, ⟨11, _⟩ => ⟨S_, .f32⟩
  | .hbm, ⟨12, _⟩ => ⟨S5x16, .f32⟩
  | .hbm, ⟨13, _⟩ => ⟨S16x5, .f32⟩
  | .hbm, ⟨14, _⟩ => ⟨S1x16x11x7, .f32⟩
  | .hbm, ⟨15, _⟩ => ⟨S5x16x11x7, .f32⟩
  | .hbm, ⟨16, _⟩ => ⟨S5x16x11x7, .f32⟩
  | .hbm, ⟨17, _⟩ => ⟨S5x16x11x7, .f32⟩
  | .hbm, ⟨18, _⟩ => ⟨S_, .f32⟩
  | .hbm, ⟨19, _⟩ => ⟨S5x16, .f32⟩
  | .hbm, ⟨20, _⟩ => ⟨S16x5, .f32⟩
  | _, _ => ⟨S5x16x11x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S5x16x11x128x128_S5x16x11_d3_4 : S5x16x11x128x128.ReducesTo [3, 4] S5x16x11
  h_S_ : 0 < S_.numel
  bcast_S_S5x16x11 : S_.BroadcastsInDim S5x16x11 (![] : Fin 0 → Fin S5x16x11.rank)
  reducesTo_S5x16x11_S5x16_d2 : S5x16x11.ReducesTo [2] S5x16
  transposes_S5x16_S16x5_1_0 : S5x16.Transposes [1, 0] S16x5
  bcast_S16x11x7_S1x16x11x7_1_2_3 : S16x11x7.BroadcastsInDim S1x16x11x7 (![1, 2, 3] : Fin 3 → Fin S1x16x11x7.rank)
  bcast_S1x16x11x7_S5x16x11x7_0_1_2_3 : S1x16x11x7.BroadcastsInDim S5x16x11x7 (![0, 1, 2, 3] : Fin 4 → Fin S5x16x11x7.rank)
  reducesTo_S5x16x11x7_S5x16_d2_3 : S5x16x11x7.ReducesTo [2, 3] S5x16

variable [Facts₀]

class Facts : Prop extends Facts₀ where

variable [Facts]
-- ==== Proof.KernelTile.lean ====
/-
  What the kernel body stores for one tile, read at an index.

  The body loads a block of each input of shape [1, 8, 11, 128, 128] (one stack, eight batch rows, all eleven
  channels, whole 128 × 128 maps), drops the leading unit axis, squares the difference, sums over the last axis
  (the 128 columns) and divides by 128, sums over the next (the 128 rows) and divides by 128 again, and stores the
  [8, 11] result as a [1, 8, 11] block.  At batch row `b` and channel `c` that is the mean over the rows of the
  means over the columns of the squared difference: `tileMean`.
-/
import proofs.«140212_j51866025066626_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- The mean over the 128 rows of the means over the 128 columns of the squared difference of two tiles, at batch
    row `b` and channel `c`; the divisor is the pattern of `128.0` as the body spells it. -/
def tileMean (x0 x1 : Vec Ideal S1x8x11x128x128 .f32) (b : Fin 8) (c : Fin 11) : EReal :=
  Ideal.div (∑ h : Fin 128, Ideal.div (∑ w : Fin 128,
      (x0 (ix5 0 b c h w) - x1 (ix5 0 b c h w)) * (x0 (ix5 0 b c h w) - x1 (ix5 0 b c h w)))
    (Ideal.ofBits .f32 0x43000000#32)) (Ideal.ofBits .f32 0x43000000#32)

/-- Storing an [8, 11] value as a [1, 8, 11] block: entry (0, b, c) is entry (b, c). -/
theorem addUnit_apply (v : FVec Ideal S8x11 .f32) (h : S8x11.ShapeCasts S1x8x11) (b : Fin 8) (c : Fin 11) :
    shapeCast S1x8x11 v h (ix3 0 b c) = v (ix2 b c) :=
  shapeCast_apply v h (ix3 0 b c) (ix2 b c) (by
    rw [Shape.rowMajor_val_two, Shape.rowMajor_val_three]
    show (b : ℕ) * 11 + (c : ℕ) = ((0 : ℕ) * 8 + (b : ℕ)) * 11 + (c : ℕ)
    omega)

/-- Viewing a [1, 8, 11, 128, 128] block as [8, 11, 128, 128]: entry (b, c, h, w) is entry (0, b, c, h, w). -/
theorem dropUnit_apply (v : Vec Ideal S1x8x11x128x128 .f32) (h : S1x8x11x128x128.ShapeCasts S8x11x128x128)
    (b : Fin 8) (c : Fin 11) (r : Fin 128) (w : Fin 128) :
    shapeCast S8x11x128x128 v h (ix4 b c r w) = v (ix5 0 b c r w) :=
  shapeCast_apply v h (ix4 b c r w) (ix5 0 b c r w) (by
    rw [Shape.rowMajor_val_four, Shape.rowMajor_val_five]; simp)

/-- The sum over the last axis (the columns) at (b, c, r). -/
theorem colSum_apply (v : FVec Ideal S8x11x128x128 .f32) (h : S8x11x128x128.Reduces [3] S8x11x128)
    (hφ : FKind.Formats .f32) (hacc : (0x00000000#32 : BitVec 32) = FKind.add.neutral .f32 hφ)
    (b : Fin 8) (c : Fin 11) (r : Fin 128) :
    multiReduction .add [3] S8x11x128 v 0x00000000#32 h hφ hacc (ix3 b c r) = ∑ w : Fin 128, v (ix4 b c r w) := by
  refine (Ideal.multiReduction_add_single v _ h hφ hacc (ix3 b c r)).trans ?_
  refine Finset.sum_congr rfl fun k _ => congrArg v ?_
  funext a; apply Fin.ext
  match a with
  | ⟨0, _⟩ => rfl
  | ⟨1, _⟩ => rfl
  | ⟨2, _⟩ => rfl
  | ⟨3, _⟩ => rfl

/-- The sum over the last axis of what is left (the rows) at (b, c). -/
theorem rowSum_apply (v : FVec Ideal S8x11x128 .f32) (h : S8x11x128.Reduces [2] S8x11)
    (hφ : FKind.Formats .f32) (hacc : (0x00000000#32 : BitVec 32) = FKind.add.neutral .f32 hφ)
    (b : Fin 8) (c : Fin 11) :
    multiReduction .add [2] S8x11 v 0x00000000#32 h hφ hacc (ix2 b c) = ∑ r : Fin 128, v (ix3 b c r) := by
  refine (Ideal.multiReduction_add_single v _ h hφ hacc (ix2 b c)).trans ?_
  refine Finset.sum_congr rfl fun k _ => congrArg v ?_
  funext a; apply Fin.ext
  match a with
  | ⟨0, _⟩ => rfl
  | ⟨1, _⟩ => rfl
  | ⟨2, _⟩ => rfl

/-- The difference of the two blocks, each viewed without its unit axis, at (b, c, r, w). -/
theorem diff_apply (u0 u1 : Vec Ideal S1x8x11x128x128 .f32) (h : S1x8x11x128x128.ShapeCasts S8x11x128x128)
    (b : Fin 8) (c : Fin 11) (r : Fin 128) (w : Fin 128) :
    (subf (shapeCast S8x11x128x128 u0 h) (shapeCast S8x11x128x128 u1 h) : FVec Ideal S8x11x128x128 .f32) (ix4 b c r w)
      = u0 (ix5 0 b c r w) - u1 (ix5 0 b c r w) := by
  refine (subf_apply _ _ _).trans ?_
  rw [dropUnit_apply, dropUnit_apply]

/-- THE STORED BLOCK at (0, b, c) is the tile's mean of means. -/
theorem pay_apply (x0 x1 : Vec Ideal S1x8x11x128x128 .f32) (b : Fin 8) (c : Fin 11) :
    k0_pay1 (F := Ideal) x0 x1 (ix3 0 b c) = tileMean x0 x1 b c := by
  unfold k0_pay1 tileMean
  refine (addUnit_apply _ _ b c).trans ?_
  refine (divf_apply _ _ _).trans (congrArg₂ Ideal.div ?_ rfl)
  refine (rowSum_apply _ _ _ _ b c).trans (Finset.sum_congr rfl fun r _ => ?_)
  refine (divf_apply _ _ _).trans (congrArg₂ Ideal.div ?_ rfl)
  refine (colSum_apply _ _ _ _ b c r).trans (Finset.sum_congr rfl fun w _ => ?_)
  refine (mulf_apply _ _ _).trans ?_
  rw [diff_apply]

end Cert.KernelIdeal.Tile

end
-- ==== Proof.MeanSquare.lean ====
/-
  The quantity both programs compute before their shared tail: for each stack `s`, batch row `b` and channel `k`
  the mean, over the 128 × 128 heat map, of the squared difference of the two inputs — written here the way the
  kernel computes it, as the mean over the rows of the means over the columns.
-/
import Idealize.ShloMosaic.Lib.ValueIdx
import Idealize.ShloMosaic.PureOps.Ideal

noncomputable section

namespace Cert.MeanSquare

open Idealize.ShloMosaic Idealize.ShloMosaic.ValueIdx

/-- The inputs' shape and the shape of the per-map means. -/
abbrev SIn : Shape := ⟨5, ![5, 16, 11, 128, 128]⟩
abbrev SOut : Shape := ⟨3, ![5, 16, 11]⟩

/-- The mean over the rows of the means over the columns of `(a0 - a1)²` on the map of stack `s`, batch row `b`,
    channel `k`; each division is by the pattern of `128.0`. -/
def meanSqAt (a0 a1 : SIn.Idx → EReal) (s : Fin 5) (b : Fin 16) (k : Fin 11) : EReal :=
  Ideal.div (∑ r : Fin 128, Ideal.div (∑ w : Fin 128,
      (a0 (ix5 s b k r w) - a1 (ix5 s b k r w)) * (a0 (ix5 s b k r w) - a1 (ix5 s b k r w)))
    (Ideal.ofBits .f32 0x43000000#32)) (Ideal.ofBits .f32 0x43000000#32)

/-- The array of those means. -/
def meanSq (a0 a1 : SIn.Idx → EReal) : SOut.Idx → EReal := fun j => meanSqAt a0 a1 (j 0) (j 1) (j 2)

theorem meanSq_ix3 (a0 a1 : SIn.Idx → EReal) (s : Fin 5) (b : Fin 16) (k : Fin 11) :
    meanSq a0 a1 (ix3 s b k) = meanSqAt a0 a1 s b k := rfl

end Cert.MeanSquare

end
-- ==== Proof.KernelArray.lean ====
/-
  The array the kernel region leaves behind.

  The grid has a point for each of the five stacks and each half of the sixteen batch rows.  At point (s, h) the body
  reads stack `s`, batch rows `8h .. 8h + 7` of both inputs (every channel, the whole maps) and writes back the
  [1, 8, 11] block of per-map means at the same stack and batch rows.  The ten blocks tile the [5, 16, 11] array, so
  after the region the array holds, at every (s, b, k), the mean of the squared difference over map (s, b, k).
-/
import proofs.«140212_j51866025066626_1_alg».proof.Proof.Gen.KernelIdeal.Frame
import proofs.«140212_j51866025066626_1_alg».proof.Proof.KernelTile
import proofs.«140212_j51866025066626_1_alg».proof.Proof.MeanSquare
import Idealize.ShloMosaic.Lib.ValueIdx
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MeanSquare

variable (m : (ℓ : Loc nD τ sig) → Buf (Elt Ideal) ℓ)

/-- The two input arrays as the region finds them, and their blocks at a grid point, at their literal types. -/
abbrev arr0 (c : Dev nD) : FVec Ideal S5x16x11x128x128 .f32 := V m c main_arg0
abbrev arr1 (c : Dev nD) : FVec Ideal S5x16x11x128x128 .f32 := V m c main_arg1
abbrev blk0 (c : Dev nD) (t : Fin cfg0.N) : Vec Ideal S1x8x11x128x128 .f32 := iblk m c 0 t
abbrev blk1 (c : Dev nD) (t : Fin cfg0.N) : Vec Ideal S1x8x11x128x128 .f32 := iblk m c 1 t

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The index maps, decided over the ten points: both inputs' blocks sit at the output block's stack and batch
    half and at block 0 of every other axis; the output's stack is below 5 and its batch half below 2. -/
theorem idx_facts : ∀ t : Fin cfg0.N,
    win0_0.index t (0 : Fin 5) = win0_2.index t (0 : Fin 3) ∧ win0_0.index t (1 : Fin 5) = win0_2.index t (1 : Fin 3)
    ∧ win0_0.index t (2 : Fin 5) = 0 ∧ win0_0.index t (3 : Fin 5) = 0 ∧ win0_0.index t (4 : Fin 5) = 0
    ∧ win0_1.index t (0 : Fin 5) = win0_2.index t (0 : Fin 3) ∧ win0_1.index t (1 : Fin 5) = win0_2.index t (1 : Fin 3)
    ∧ win0_1.index t (2 : Fin 5) = 0 ∧ win0_1.index t (3 : Fin 5) = 0 ∧ win0_1.index t (4 : Fin 5) = 0
    ∧ win0_2.index t (2 : Fin 3) = 0 ∧ win0_2.index t (0 : Fin 3) ≤ 4 ∧ win0_2.index t (1 : Fin 3) ≤ 1 :=
  (by decide +kernel : ∀ t : Fin grid0.N, _)

/-- Every (stack, batch half) is some point's. -/
theorem idx_onto : ∀ (q0 : Fin 5) (q1 : Fin 2), ∃ t : Fin cfg0.N, win0_2.index t = ![q0.val, q1.val, 0] :=
  (by decide +kernel : ∀ (q0 : Fin 5) (q1 : Fin 2), ∃ t : Fin grid0.N, win0_2.index t = ![q0.val, q1.val, 0])

/-- Input 0's block at point `t`, read at (0, b, k, r, w), is the array at the output block's stack and batch rows. -/
theorem blk0_apply (c : Dev nD) (t : Fin cfg0.N) (b : Fin 8) (k : Fin 11) (r w : Fin 128)
    (s : Fin 5) (bb : Fin 16) (hs : s.val = win0_2.index t (0 : Fin 3)) (hb : bb.val = win0_2.index t (1 : Fin 3) * 8 + b.val) :
    blk0 m c t (ix5 0 b k r w) = arr0 m c (ix5 s bb k r w) := by
  obtain ⟨e0, e1, e2, e3, e4, -, -, -, -, -, -, -, -⟩ := idx_facts t
  show V m c main_arg0 (((cfg0.win 0).blk t).view.emb (ix5 0 b k r w)) = V m c main_arg0 (ix5 s bb k r w)
  refine congrArg (V m c main_arg0) ?_
  funext a; apply Fin.ext
  match a with
  | ⟨0, _⟩ => show win0_0.index t (0 : Fin 5) * 1 + 1 * (0 : ℕ) = s.val; omega
  | ⟨1, _⟩ => show win0_0.index t (1 : Fin 5) * 8 + 1 * b.val = bb.val; omega
  | ⟨2, _⟩ => show win0_0.index t (2 : Fin 5) * 11 + 1 * k.val = k.val; omega
  | ⟨3, _⟩ => show win0_0.index t (3 : Fin 5) * 128 + 1 * r.val = r.val; omega
  | ⟨4, _⟩ => show win0_0.index t (4 : Fin 5) * 128 + 1 * w.val = w.val; omega

/-- The same for input 1. -/
theorem blk1_apply (c : Dev nD) (t : Fin cfg0.N) (b : Fin 8) (k : Fin 11) (r w : Fin 128)
    (s : Fin 5) (bb : Fin 16) (hs : s.val = win0_2.index t (0 : Fin 3)) (hb : bb.val = win0_2.index t (1 : Fin 3) * 8 + b.val) :
    blk1 m c t (ix5 0 b k r w) = arr1 m c (ix5 s bb k r w) := by
  obtain ⟨-, -, -, -, -, e0, e1, e2, e3, e4, -, -, -⟩ := idx_facts t
  show V m c main_arg1 (((cfg0.win 1).blk t).view.emb (ix5 0 b k r w)) = V m c main_arg1 (ix5 s bb k r w)
  refine congrArg (V m c main_arg1) ?_
  funext a; apply Fin.ext
  match a with
  | ⟨0, _⟩ => show win0_1.index t (0 : Fin 5) * 1 + 1 * (0 : ℕ) = s.val; omega
  | ⟨1, _⟩ => show win0_1.index t (1 : Fin 5) * 8 + 1 * b.val = bb.val; omega
  | ⟨2, _⟩ => show win0_1.index t (2 : Fin 5) * 11 + 1 * k.val = k.val; omega
  | ⟨3, _⟩ => show win0_1.index t (3 : Fin 5) * 128 + 1 * r.val = r.val; omega
  | ⟨4, _⟩ => show win0_1.index t (4 : Fin 5) * 128 + 1 * w.val = w.val; omega

/-- So the tile mean of the two blocks at point `t` is the map mean of the two arrays there. -/
theorem tile_eq (c : Dev nD) (t : Fin cfg0.N) (b : Fin 8) (k : Fin 11)
    (s : Fin 5) (bb : Fin 16) (hs : s.val = win0_2.index t (0 : Fin 3)) (hb : bb.val = win0_2.index t (1 : Fin 3) * 8 + b.val) :
    Tile.tileMean (blk0 m c t) (blk1 m c t) b k = meanSqAt (arr0 m c) (arr1 m c) s bb k := by
  unfold Tile.tileMean meanSqAt
  refine congrArg₂ Ideal.div (Finset.sum_congr rfl fun r _ => congrArg₂ Ideal.div (Finset.sum_congr rfl fun w _ => ?_) rfl) rfl
  rw [blk0_apply m c t b k r w s bb hs hb, blk1_apply m c t b k r w s bb hs hb]

/-- WHAT POINT `t` WRITES BACK is block `t` of the array of map means. -/
theorem flushed_eq (c : Dev nD) (t : Fin cfg0.N) :
    (dats m 0 c).flushed 2 t = ((cfg0.win 2).blk t).view.read (Elt Ideal) (meanSq (arr0 m c) (arr1 m c)) := by
  show (cfg0.win 2).cut (grid0.coords t) ((dats m 0 c).after 2 t) = _
  rw [after0_2]
  unfold out0_2
  rw [View.canon_unit_zero hz3]
  simp only [View.ld_unit_zero (S := S1x8x11x128x128) hz5]
  obtain ⟨-, -, -, -, -, -, -, -, -, -, e2, l0, l1⟩ := idx_facts t
  funext y
  obtain ⟨u, b, k, rfl⟩ : ∃ (u : Fin 1) (b : Fin 8) (k : Fin 11), y = ix3 u b k := ⟨y 0, y 1, y 2, eq_ix3 y⟩
  obtain rfl : u = 0 := Subsingleton.elim _ _
  have hb := b.isLt
  have hi : ((cfg0.win 2).blk t).view.emb (ix3 0 b k)
      = ix3 (⟨win0_2.index t (0 : Fin 3), by omega⟩ : Fin 5) (⟨win0_2.index t (1 : Fin 3) * 8 + b.val, by omega⟩ : Fin 16) k := by
    funext a; apply Fin.ext
    match a with
    | ⟨0, _⟩ => show win0_2.index t (0 : Fin 3) * 1 + 1 * (0 : ℕ) = win0_2.index t (0 : Fin 3); omega
    | ⟨1, _⟩ => show win0_2.index t (1 : Fin 3) * 8 + 1 * b.val = win0_2.index t (1 : Fin 3) * 8 + b.val; omega
    | ⟨2, _⟩ => show win0_2.index t (2 : Fin 3) * 11 + 1 * k.val = k.val; omega
  show k0_pay1 (blk0 m c t) (blk1 m c t) (ix3 0 b k) = meanSq (arr0 m c) (arr1 m c) (((cfg0.win 2).blk t).view.emb (ix3 0 b k))
  rw [hi, meanSq_ix3, Tile.pay_apply]
  exact tile_eq m c t b k _ _ rfl rfl

/-- An index of the array is in point `t`'s block iff each coordinate is in the block's range on its axis. -/
theorem mem_blk (t : Fin cfg0.N) (i : S5x16x11.Idx) :
    i ∈ ((cfg0.win 2).blk t).view.set ↔ ∀ a : Fin 3, win0_2.index t a * S1x8x11.size a ≤ (i a).val ∧ (i a).val < win0_2.index t a * S1x8x11.size a + S1x8x11.size a := by
  show i ∈ ((View.whole main_v0).slice (win0_2.rect t)).set ↔ _
  rw [View.set_slice_whole, Rect.mem_set_unit]
  exact Iff.rfl

/-- Every index of the array is in some point's block: the point of its stack and of its batch row's half. -/
theorem cover (i : S5x16x11.Idx) :
    ∃ t : Fin cfg0.N, (cfg0.win 2).flush t = true ∧ i ∈ ((cfg0.win 2).blk t).view.set := by
  have hi0 : (i 0).val < 5 := (i 0).isLt
  have hi1 : (i 1).val < 16 := (i 1).isLt
  have hi2 : (i 2).val < 11 := (i 2).isLt
  obtain ⟨t, ht⟩ := idx_onto ⟨(i 0).val, hi0⟩ ⟨(i 1).val / 8, by omega⟩
  have q0 : win0_2.index t (0 : Fin 3) = (i 0).val := congrFun ht 0
  have q1 : win0_2.index t (1 : Fin 3) = (i 1).val / 8 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 11 ≤ (i 2).val ∧ (i 2).val < win0_2.index t (2 : Fin 3) * 11 + 11; omega

/-- THE ARRAY after the region: the map means of the two inputs as launched. -/
theorem final (c : Dev nD) :
    (dats m 0 c).arrAt 2 cfg0.N = meanSq (m ((c : Thread nD τ).loc main_arg0)) (m ((c : Thread nD τ).loc main_arg1)) :=
  (dats m 0 c).arrAt_eq_of_cover 2 (meanSq (arr0 m c) (arr1 m c)) (fun t _ => flushed_eq m c t) (cover)

end Cert.KernelIdeal.Region

end
-- ==== Proof.KernelRun.lean ====
/-
  The kernel program's run, with both results named.

  After the region the program sums the array of map means over the channels and transposes ([5, 16] to [16, 5]): the
  first result.  The second result does not touch the region's array: the squared difference of the label inputs (the
  second broadcast over the stacks), summed over classes and features, transposed.  Both are read off the generated
  frame run, whose post states what every buffer holds after the lines that follow the region.
-/
import proofs.«140212_j51866025066626_1_alg».proof.Proof.KernelArray
import Idealize.ShloMosaic.Lib.StableHlo.Run

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MeanSquare

variable (m : (ℓ : Loc nD τ sig) → Buf (Elt Ideal) ℓ) (ρ : Dev nD → PrngReg)

/-- The tail both programs share on the first result: the sum over the channels (from the initial value `0`), then the
    transpose to [batch, stack]. -/
def chanSumT (A : FVec Ideal S5x16x11 .f32) : FVec Ideal S16x5 .f32 :=
  transpose S16x5 [1, 0] (Host.reduceAdd A (constant (F := Ideal) S_ .f32 0x00000000#32) reducesTo_S5x16x11_S5x16_d2 h_S_)
    transposes_S5x16_S16x5_1_0

/-- The second result as a function of the label inputs: the squared difference against the labels broadcast over the
    stacks, summed over classes and features, transposed to [batch, stack]. -/
def labelLoss (x2 : FVec Ideal S5x16x11x7 .f32) (x3 : FVec Ideal S16x11x7 .f32) : FVec Ideal S16x5 .f32 :=
  transpose S16x5 [1, 0]
    (Host.reduceAdd
      (mulf
        (subf x2 (broadcastInDim S5x16x11x7 ![0, 1, 2, 3] bcast_S1x16x11x7_S5x16x11x7_0_1_2_3
          (broadcastInDim S1x16x11x7 ![1, 2, 3] bcast_S16x11x7_S1x16x11x7_1_2_3 x3)))
        (subf x2 (broadcastInDim S5x16x11x7 ![0, 1, 2, 3] bcast_S1x16x11x7_S5x16x11x7_0_1_2_3
          (broadcastInDim S1x16x11x7 ![1, 2, 3] bcast_S16x11x7_S1x16x11x7_1_2_3 x3))))
      (constant (F := Ideal) S_ .f32 0x00000000#32) reducesTo_S5x16x11x7_S5x16_d2_3 h_S_)
    transposes_S5x16_S16x5_1_0

/-- The first result after the run: the shared tail of the array of map means. -/
theorem post_v2 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v2)
      = chanSumT (meanSq (m ((c : Thread nD τ).loc main_arg0)) (m ((c : Thread nD τ).loc main_arg1))) := by
  refine ((h c).2 main_v2 (Pipeline.mem_restRefs_of main_v2 (by decide) (by decide))).trans ?_
  unfold Pipeline.afterTail₀
  show StableHlo.after hostOps1 _ (Proc.devRef .tc main_v2) = _
  after_results
  rw [Pipeline.withArrays_arr spec0 launch0.win.arr_inj c _ _ 2, final m c]
  rfl

/-- The second result after the run. -/
theorem post_v8 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v8)
      = labelLoss (m ((c : Thread nD τ).loc main_arg2)) (m ((c : Thread nD τ).loc main_arg3)) := by
  refine ((h c).2 main_v8 (Pipeline.mem_restRefs_of main_v8 (by decide) (by decide))).trans ?_
  unfold Pipeline.afterTail₀
  show StableHlo.after hostOps1 _ (Proc.devRef .tc main_v8) = _
  after_results
  rw [Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3))]
  rfl

/-- THE RUN: every weakly fair execution terminates with the two results at their functions of the inputs as launched,
    and the inputs unchanged. -/
theorem run : θ_run defs (onTc (τ := τ) (main (F := Ideal))) ⟨m, fun _ => 0, ρ⟩ fun r => ∀ c : Dev nD,
      r.2.mem ((c : Thread nD τ).loc main_v2)
        = chanSumT (meanSq (m ((c : Thread nD τ).loc main_arg0)) (m ((c : Thread nD τ).loc main_arg1)))
      ∧ r.2.mem ((c : Thread nD τ).loc main_v8)
        = labelLoss (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post_v2 m r h c, post_v8 m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Region

end
-- ==== Proof.MeanOfMeans.lean ====
/-
  The arithmetic that joins the two programs, on the extended reals.

  One program averages a 128 × 128 tile in two steps: each row's sum divided by 128, then the sum of those row
  means divided by 128 again.  The other divides the sum over the whole tile by 16384 once.  Division by a nonzero real
  is multiplication by its reciprocal, at the infinities too, and multiplication by a finite nonnegative factor
  distributes over ANY sum of extended reals (only an infinite or a negative factor can meet `⊤ + ⊥` badly).  So the
  factor 1/128 moves out of the row sum, the two factors multiply to 1/16384, and the two means agree for every
  tile of extended reals, finite or not.
-/
import Idealize.ShloMosaic.PureOps.Ideal
import Mathlib.Data.EReal.Operations

noncomputable section

namespace Cert.MeanOfMeans

open Idealize.ShloMosaic

/-- The pattern of `128.0` denotes the real 128. -/
theorem ofBits_128 : Ideal.ofBits .f32 0x43000000#32 = ((128 : ℝ) : EReal) := by
  simp [Ideal.ofBits, Ideal.ieee, -EReal.coe_mul]; norm_num

/-- The pattern of `16384.0` denotes the real 16384. -/
theorem ofBits_16384 : Ideal.ofBits .f32 0x46800000#32 = ((16384 : ℝ) : EReal) := by
  simp [Ideal.ofBits, Ideal.ieee, -EReal.coe_mul]; norm_num

/-- The pattern of `+0.0` denotes zero. -/
theorem ofBits_zero : Ideal.ofBits .f32 0x00000000#32 = 0 := by
  simp [Ideal.ofBits, Ideal.ieee]

/-- A finite nonnegative factor moves out of any finite sum of extended reals. -/
theorem sum_mul_const {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- The mean of the row means of a tile with 128 columns and 128 rows is the mean of the whole tile: the
    row sums over `128`, summed, over `128` again, against the double sum (from the initial value `0`) over `16384`. -/
theorem mean_of_means {H W : Type*} [Fintype H] [Fintype W] (q : H → W → EReal) :
    Ideal.div (∑ h, Ideal.div (∑ w, q h w) (Ideal.ofBits .f32 0x43000000#32)) (Ideal.ofBits .f32 0x43000000#32)
      = Ideal.div (Ideal.ofBits .f32 0x00000000#32 + ∑ h, ∑ w, q h w) (Ideal.ofBits .f32 0x46800000#32) := by
  have hc : (0 : EReal) ≤ ((1 / 128 : ℝ) : EReal) := EReal.coe_nonneg.mpr (by norm_num)
  have hc' : ((1 / 128 : ℝ) : EReal) ≠ ⊤ := EReal.coe_ne_top _
  rw [ofBits_128, ofBits_16384, ofBits_zero, zero_add,
    Ideal.div_coe (by norm_num : (128 : ℝ) ≠ 0), Ideal.div_coe (by norm_num : (16384 : ℝ) ≠ 0)]
  have e : ∀ h, Ideal.div (∑ w, q h w) ((128 : ℝ) : EReal) = (∑ w, q h w) * ((1 / 128 : ℝ) : EReal) :=
    fun h => Ideal.div_coe (by norm_num : (128 : ℝ) ≠ 0) _
  rw [Finset.sum_congr rfl fun h _ => e h, ← sum_mul_const _ _ hc hc', mul_assoc, ← EReal.coe_mul]
  norm_num

end Cert.MeanOfMeans

end
-- ==== Proof.RefValue.lean ====
/-
  The reference's array of map means.

  The reference squares the difference of the whole inputs, sums each 128 × 128 map in one two-axis reduction from the
  initial value `0`, and divides by `16384`.  The indices of a map are its (row, column) pairs, so the two-axis sum is
  a double sum; and the mean of the row means is the mean of the whole map (`MeanOfMeans.mean_of_means`).  So the
  reference's array is the array of map means as the kernel computes them.
-/
import proofs.«140212_j51866025066626_1_alg».proof.Proof.Gen.ReferenceIdeal.Read
import proofs.«140212_j51866025066626_1_alg».proof.Proof.MeanSquare
import proofs.«140212_j51866025066626_1_alg».proof.Proof.MeanOfMeans
import Idealize.ShloMosaic.Lib.ValueIdx

noncomputable section

namespace Cert.ReferenceIdeal.RefValue

open Idealize.ShloMosaic Idealize.ShloMosaic.ValueIdx
open Cert.ReferenceIdeal Cert.ReferenceIdeal.Gen Cert.MeanSquare

/-- The source indices that a reduction over the last two axes sends to (s, b, k) are the (row, column) pairs of map
    (s, b, k): the sum over them is the double sum over rows and columns. -/
theorem sum_map (h' : S5x16x11x128x128.ReducesTo [3, 4] S5x16x11) (f : S5x16x11x128x128.Idx → EReal)
    (s : Fin 5) (b : Fin 16) (k : Fin 11) :
    ∑ i ∈ Finset.univ.filter (fun i => h'.drop i = ix3 s b k), f i = ∑ r : Fin 128, ∑ w : Fin 128, f (ix5 s b k r w) := by
  rw [← Finset.sum_product']
  symm
  refine Finset.sum_bij (fun p _ => ix5 s b k p.1 p.2) ?_ ?_ ?_ (fun _ _ => rfl)
  · intro p _
    refine Finset.mem_filter.mpr ⟨Finset.mem_univ _, ?_⟩
    funext a; apply Fin.ext
    match a with
    | ⟨0, _⟩ => exact h'.drop_apply_val_of_eq _ 0 0
    | ⟨1, _⟩ => exact h'.drop_apply_val_of_eq _ 1 1
    | ⟨2, _⟩ => exact h'.drop_apply_val_of_eq _ 2 2
  · intro p _ p' _ e
    have e3 : (p.1 : ℕ) = p'.1 := congrArg Fin.val (congrFun e 3)
    have e4 : (p.2 : ℕ) = p'.2 := congrArg Fin.val (congrFun e 4)
    exact Prod.ext (Fin.ext e3) (Fin.ext e4)
  · intro i hi
    have hd : h'.drop i = ix3 s b k := (Finset.mem_filter.mp hi).2
    have d0 : (i 0 : ℕ) = s := (h'.drop_apply_val_of_eq i 0 0).symm.trans (congrArg Fin.val (congrFun hd 0))
    have d1 : (i 1 : ℕ) = b := (h'.drop_apply_val_of_eq i 1 1).symm.trans (congrArg Fin.val (congrFun hd 1))
    have d2 : (i 2 : ℕ) = k := (h'.drop_apply_val_of_eq i 2 2).symm.trans (congrArg Fin.val (congrFun hd 2))
    refine ⟨(⟨(i 3).val, (i 3).isLt⟩, ⟨(i 4).val, (i 4).isLt⟩), Finset.mem_product.mpr ⟨Finset.mem_univ _, Finset.mem_univ _⟩, ?_⟩
    funext a; apply Fin.ext
    match a with
    | ⟨0, _⟩ => exact d0.symm
    | ⟨1, _⟩ => exact d1.symm
    | ⟨2, _⟩ => exact d2.symm
    | ⟨3, _⟩ => rfl
    | ⟨4, _⟩ => rfl

/-- THE REFERENCE'S ARRAY of map means (the whole-map sum over `16384`) is the array of means of row means. -/
theorem mean_eq (x0 x1 : FVec Ideal S5x16x11x128x128 .f32) :
    Read.val_main_v4 (F := Ideal) x0 x1 = meanSq x0 x1 := by
  funext j
  obtain ⟨s, b, k, rfl⟩ : ∃ (s : Fin 5) (b : Fin 16) (k : Fin 11), j = ix3 s b k := ⟨j 0, j 1, j 2, eq_ix3 j⟩
  rw [meanSq_ix3]
  unfold meanSqAt
  rw [MeanOfMeans.mean_of_means (fun r w => (x0 (ix5 s b k r w) - x1 (ix5 s b k r w)) * (x0 (ix5 s b k r w) - x1 (ix5 s b k r w)))]
  rw [← sum_map reducesTo_S5x16x11x128x128_S5x16x11_d3_4 (fun i => (x0 i - x1 i) * (x0 i - x1 i)) s b k]
  rfl

end Cert.ReferenceIdeal.RefValue

end
-- ==== Proof.lean ====
/-
  The heat-map loss kernel against its jnp reference, over the extended reals.

  Both programs return two [16, 5] arrays.  The first is, per batch row and stack, the sum over the eleven channels of
  the mean over the 128 × 128 heat map of the squared difference of the two heat inputs.  The kernel takes that mean in
  two steps inside its region — the mean over the columns of each row, then the mean of those over the rows, each a
  sum divided by 128 — on blocks of eight batch rows; the reference sums each map in one two-axis reduction and divides by
  16384.  A division by a nonzero real is a product with its reciprocal, and a finite nonnegative factor moves out of
  any sum of extended reals, so the two means agree at every input, finite or not (Proof/MeanOfMeans.lean); the channel
  sum and the transpose after it are the same operations in both programs.  The second result, the squared label error
  summed over classes and features, is computed by the same host operations in both programs.

  The kernel's region leaves the array of map means (Proof/KernelTile.lean for one block, Proof/KernelArray.lean for the
  array, Proof/KernelRun.lean for the run with the lines after the region); the reference's array of map means is the
  same array (Proof/RefValue.lean).  The idealization rewrote nothing, so `preserves` has nothing to state.
-/
import proofs.«140212_j51866025066626_1_alg».proof.Defs
import proofs.«140212_j51866025066626_1_alg».proof.Proof.Gen.Kernel
import proofs.«140212_j51866025066626_1_alg».proof.Proof.Gen.Kernel.Skeleton
import proofs.«140212_j51866025066626_1_alg».proof.Proof.Gen.Kernel.Launch
import proofs.«140212_j51866025066626_1_alg».proof.Proof.Gen.Kernel.Points
import proofs.«140212_j51866025066626_1_alg».proof.Proof.Gen.Kernel.Frame
import proofs.«140212_j51866025066626_1_alg».proof.Proof.Gen.KernelIdeal
import proofs.«140212_j51866025066626_1_alg».proof.Proof.Gen.KernelIdeal.Skeleton
import proofs.«140212_j51866025066626_1_alg».proof.Proof.Gen.KernelIdeal.Launch
import proofs.«140212_j51866025066626_1_alg».proof.Proof.Gen.KernelIdeal.Points
import proofs.«140212_j51866025066626_1_alg».proof.Proof.Gen.KernelIdeal.Frame
import proofs.«140212_j51866025066626_1_alg».proof.Proof.Gen.ReferenceIdeal
import proofs.«140212_j51866025066626_1_alg».proof.Proof.Gen.Pre_finite_inputs
import proofs.«140212_j51866025066626_1_alg».proof.Proof.Gen.ReferenceIdeal.Run
import proofs.«140212_j51866025066626_1_alg».proof.Proof.Gen.ReferenceIdeal.Read
import proofs.«140212_j51866025066626_1_alg».proof.Proof.KernelRun
import proofs.«140212_j51866025066626_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four inputs both programs end with the channel sums of the map means and with the
    label loss of the same inputs. -/
theorem algebraic : Cert.algebraic_KernelIdeal_ReferenceIdeal := by
  intro m ρ m' ρ' _ hagree
  refine ⟨_, _, Cert.KernelIdeal.Region.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1]
    exact congrArg Cert.KernelIdeal.Region.chanSumT (Cert.ReferenceIdeal.RefValue.mean_eq _ _)
  · rw [(hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
